-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : FVec F S128x128 .f32) (main_arg2 : FVec F S64x64 .f32) (main_arg3 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S8192x64 : Shape := ⟨2, ![8192, 64]⟩
abbrev S2048x64 : Shape := ⟨2, ![2048, 64]⟩
abbrev S64x128x64 : Shape := ⟨3, ![64, 128, 64]⟩
abbrev S64x64x128 : Shape := ⟨3, ![64, 64, 128]⟩
abbrev S4096x128 : Shape := ⟨2, ![4096, 128]⟩
abbrev S1024x128 : Shape := ⟨2, ![1024, 128]⟩
abbrev S1x8192 : Shape := ⟨2, ![1, 8192]⟩

abbrev nBuf : Space → Nat
  | .hbm => 16
  | .vmem => 10
  | .smem => 0
  | _ => 0

abbrev bufTy : (tb : Table) → Fin (tcTables nBuf tb) → BufTy
  | .hbm, ⟨0, _⟩ => ⟨S64x8192, .f32⟩
  | .hbm, ⟨1, _⟩ => ⟨S128x128, .f32⟩
  | .hbm, ⟨2, _⟩ => ⟨S64x64, .f32⟩
  | .hbm, ⟨3, _⟩ => ⟨S8192, .f32⟩
  | .hbm, ⟨4, _⟩ => ⟨S8192x64, .f32⟩
  | .hbm, ⟨5, _⟩ => ⟨S8192x64, .f32⟩
  | .hbm, ⟨6, _⟩ => ⟨S64x128x64, .f32⟩
  | .hbm, ⟨7, _⟩ => ⟨S64x64x128, .f32⟩
  | .hbm, ⟨8, _⟩ => ⟨S4096x128, .f32⟩
  | .hbm, ⟨9, _⟩ => ⟨S4096x128, .f32⟩
  | .hbm, ⟨10, _⟩ => ⟨S64x64x128, .f32⟩
  | .hbm, ⟨11, _⟩ => ⟨S64x128x64, .f32⟩
  | .hbm, ⟨12, _⟩ => ⟨S64x8192, .f32⟩
  | .hbm, ⟨13, _⟩ => ⟨S1x8192, .f32⟩
  | .hbm, ⟨14, _⟩ => ⟨S64x8192, .f32⟩
  | .hbm, ⟨15, _⟩ => ⟨S64x8192, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S1024x128, .f32⟩
  | .local _ .vmem, ⟨6, _⟩ => ⟨S1024x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64x8192_S8192x64 : S64x8192.ShapeCasts S8192x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S8192x64_S64x128x64 : S8192x64.ShapeCasts S64x128x64
  transposes_S64x128x64_S64x64x128_0_2_1 : S64x128x64.Transposes [0, 2, 1] S64x64x128
  shapeCasts_S64x64x128_S4096x128 : S64x64x128.ShapeCasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S4096x128_S64x64x128 : S4096x128.ShapeCasts S64x64x128
  transposes_S64x64x128_S64x128x64_0_2_1 : S64x64x128.Transposes [0, 2, 1] S64x128x64
  shapeCasts_S64x128x64_S64x8192 : S64x128x64.ShapeCasts S64x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S2048x64_S64x64_S2048x64_1_0_0_1_n_n_wf : DotDims.WF S2048x64 S64x64 S2048x64 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S128x1x128x1 : Shape := ⟨4, ![128, 1, 128, 1]⟩
abbrev S1x64x1x64 : Shape := ⟨4, ![1, 64, 1, 64]⟩
abbrev S128x64x128x64 : Shape := ⟨4, ![128, 64, 128, 64]⟩
abbrev S8192x8192 : Shape := ⟨2, ![8192, 8192]⟩
abbrev S1x8192 : Shape := ⟨2, ![1, 8192]⟩

abbrev nBuf : Space → Nat
  | .hbm => 15
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S128x128, .f32⟩
  | .hbm, ⟨2, _⟩ => ⟨S64x64, .f32⟩
  | .hbm, ⟨3, _⟩ => ⟨S8192, .f32⟩
  | .hbm, ⟨4, _⟩ => ⟨S128x1x128x1, .f32⟩
  | .hbm, ⟨5, _⟩ => ⟨S1x64x1x64, .f32⟩
  | .hbm, ⟨6, _⟩ => ⟨S128x64x128x64, .f32⟩
  | .hbm, ⟨7, _⟩ => ⟨S128x64x128x64, .f32⟩
  | .hbm, ⟨8, _⟩ => ⟨S128x64x128x64, .f32⟩
  | .hbm, ⟨9, _⟩ => ⟨S8192x8192, .f32⟩
  | .hbm, ⟨10, _⟩ => ⟨S8192x8192, .f32⟩
  | .hbm, ⟨11, _⟩ => ⟨S64x8192, .f32⟩
  | .hbm, ⟨12, _⟩ => ⟨S1x8192, .f32⟩
  | .hbm, ⟨13, _⟩ => ⟨S64x8192, .f32⟩
  | .hbm, ⟨14, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]

class Facts₀ : Prop where
  bcast_S128x128_S128x1x128x1_0_2 : S128x128.BroadcastsInDim S128x1x128x1 (![0, 2] : Fin 2 → Fin S128x1x128x1.rank)
  bcast_S64x64_S1x64x1x64_1_3 : S64x64.BroadcastsInDim S1x64x1x64 (![1, 3] : Fin 2 → Fin S1x64x1x64.rank)
  bcast_S128x1x128x1_S128x64x128x64_0_1_2_3 : S128x1x128x1.BroadcastsInDim S128x64x128x64 (![0, 1, 2, 3] : Fin 4 → Fin S128x64x128x64.rank)
  bcast_S1x64x1x64_S128x64x128x64_0_1_2_3 : S1x64x1x64.BroadcastsInDim S128x64x128x64 (![0, 1, 2, 3] : Fin 4 → Fin S128x64x128x64.rank)
  shapeCasts_S128x64x128x64_S8192x8192 : S128x64x128x64.ShapeCasts S8192x8192
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.KronSpec.lean ====
/-
  The two closed forms this certificate compares, and the law that joins them.

  The weight is a Kronecker product: row `i1·64 + i2`, column `j1·64 + j2` of `kron f1 f2` is `f1[i1, j1] · f2[i2, j2]`
  (`f1` is 128 × 128, `f2` is 64 × 64).  The reference forms the 8192 × 8192 weight and takes ONE product,
      out[b, o] = (∑ k < 8192, x[b, k] · (f1[o / 64, k / 64] · f2[o % 64, k % 64])) + bias[o]            (`refOut`),
  while the kernel contracts the inner factor first and the outer factor second,
      out[b, o] = (∑ j1 < 128, (∑ j2 < 64, x[b, j1·64 + j2] · f2[o % 64, j2]) · f1[o / 64, j1]) + bias[o]  (`kronOut`).
  Splitting `k = j1·64 + j2` turns the single sum into the double one; moving `f1[o / 64, j1]` out of the inner sum is
  distributivity, which holds for real numbers and fails at the infinities of the extended reals: the law is stated for
  REAL `x`, `f1`, `f2` (the bias is only added, so it may be any extended real).
-/
import Idealize.ShloMosaic.PureOps.Ideal
import Idealize.ShloMosaic.Lib.ValueIdx
import Mathlib.Data.Fintype.BigOperators

noncomputable section

namespace Cert.KronSpec

open Idealize.ShloMosaic Idealize.ShloMosaic.ValueIdx

/-! ## The flattened pair `(j1, j2) ↦ j1·64 + j2` -/

/-- Position of the pair (outer below 128, inner below 64) on the flattened axis of extent 8192. -/
def flat (j1 : Fin 128) (j2 : Fin 64) : Fin 8192 := ⟨j1.val * 64 + j2.val, by omega⟩
/-- The outer coordinate of a flattened position. -/
def outer (k : Fin 8192) : Fin 128 := ⟨k.val / 64, by omega⟩
/-- The inner coordinate of a flattened position. -/
def inner (k : Fin 8192) : Fin 64 := ⟨k.val % 64, by omega⟩

@[simp] theorem flat_val (j1 : Fin 128) (j2 : Fin 64) : (flat j1 j2).val = j1.val * 64 + j2.val := rfl
@[simp] theorem outer_val (k : Fin 8192) : (outer k).val = k.val / 64 := rfl
@[simp] theorem inner_val (k : Fin 8192) : (inner k).val = k.val % 64 := rfl

theorem outer_flat (j1 : Fin 128) (j2 : Fin 64) : outer (flat j1 j2) = j1 := Fin.ext (by simp only [outer_val, flat_val]; omega)
theorem inner_flat (j1 : Fin 128) (j2 : Fin 64) : inner (flat j1 j2) = j2 := Fin.ext (by simp only [inner_val, flat_val]; omega)
theorem flat_outer_inner (k : Fin 8192) : flat (outer k) (inner k) = k := Fin.ext (by simp only [flat_val, outer_val, inner_val]; omega)

/-- The flattening is a bijection between the pairs and the long axis. -/
def flatEquiv : Fin 128 × Fin 64 ≃ Fin 8192 where
  toFun p := flat p.1 p.2
  invFun k := (outer k, inner k)
  left_inv p := Prod.ext (outer_flat p.1 p.2) (inner_flat p.1 p.2)
  right_inv k := flat_outer_inner k

/-- A sum over the long axis is the double sum over its pairs. -/
theorem sum_flat {M : Type*} [AddCommMonoid M] (g : Fin 8192 → M) :
    ∑ k : Fin 8192, g k = ∑ j1 : Fin 128, ∑ j2 : Fin 64, g (flat j1 j2) := by
  rw [← Equiv.sum_comp flatEquiv g, Fintype.sum_prod_type]
  rfl

/-! ## The closed forms -/

/-- `a · bᵀ`: entry `(r, n)` is `∑ k, a[r, k] · b[n, k]`. -/
def mulBT (M K N : Nat) (a : (⟨2, ![M, K]⟩ : Shape).Idx → EReal) (b : (⟨2, ![N, K]⟩ : Shape).Idx → EReal) :
    (⟨2, ![M, N]⟩ : Shape).Idx → EReal :=
  fun i => ∑ k : Fin K, a (ix2 (i 0) k) * b (ix2 (i 1) k)

/-- The factored form: the inner factor contracted first, the outer factor second, then the bias. -/
def kronOut (x : (⟨2, ![64, 8192]⟩ : Shape).Idx → EReal) (f1 : (⟨2, ![128, 128]⟩ : Shape).Idx → EReal)
    (f2 : (⟨2, ![64, 64]⟩ : Shape).Idx → EReal) (bias : (⟨1, ![8192]⟩ : Shape).Idx → EReal) :
    (⟨2, ![64, 8192]⟩ : Shape).Idx → EReal :=
  fun i => (∑ j1 : Fin 128, (∑ j2 : Fin 64, x (ix2 (i 0) (flat j1 j2)) * f2 (ix2 (inner (i 1)) j2)) * f1 (ix2 (outer (i 1)) j1))
    + bias (ix1 (i 1))

/-- The dense form: one product with the Kronecker weight, then the bias. -/
def refOut (x : (⟨2, ![64, 8192]⟩ : Shape).Idx → EReal) (f1 : (⟨2, ![128, 128]⟩ : Shape).Idx → EReal)
    (f2 : (⟨2, ![64, 64]⟩ : Shape).Idx → EReal) (bias : (⟨1, ![8192]⟩ : Shape).Idx → EReal) :
    (⟨2, ![64, 8192]⟩ : Shape).Idx → EReal :=
  fun i => (∑ k : Fin 8192, x (ix2 (i 0) k) * (f1 (ix2 (outer (i 1)) (outer k)) * f2 (ix2 (inner (i 1)) (inner k))))
    + bias (ix1 (i 1))

/-! ## The law -/

/-- The coercion of the reals into the extended reals commutes with finite sums. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- Over the reals: the single sum against the Kronecker weight is the double sum with the outer factor moved out. -/
theorem real_law (X : Fin 8192 → ℝ) (A : Fin 128 → ℝ) (B : Fin 64 → ℝ) :
    ∑ k : Fin 8192, X k * (A (outer k) * B (inner k)) = ∑ j1 : Fin 128, (∑ j2 : Fin 64, X (flat j1 j2) * B j2) * A j1 := by
  rw [sum_flat]
  refine Finset.sum_congr rfl fun j1 _ => ?_
  rw [Finset.sum_mul]
  refine Finset.sum_congr rfl fun j2 _ => ?_
  rw [outer_flat, inner_flat]
  ring

/-- THE LAW: on real `x`, `f1`, `f2` (any bias) the dense form is the factored form. -/
theorem refOut_eq_kronOut (xr : (⟨2, ![64, 8192]⟩ : Shape).Idx → ℝ) (f1r : (⟨2, ![128, 128]⟩ : Shape).Idx → ℝ)
    (f2r : (⟨2, ![64, 64]⟩ : Shape).Idx → ℝ) (bias : (⟨1, ![8192]⟩ : Shape).Idx → EReal) :
    refOut (fun i => (xr i : EReal)) (fun i => (f1r i : EReal)) (fun i => (f2r i : EReal)) bias
      = kronOut (fun i => (xr i : EReal)) (fun i => (f1r i : EReal)) (fun i => (f2r i : EReal)) bias := by
  funext i
  unfold refOut kronOut
  refine congrArg (· + bias (ix1 (i 1))) ?_
  have hl : ∑ k : Fin 8192, ((xr (ix2 (i 0) k) : ℝ) : EReal) * (((f1r (ix2 (outer (i 1)) (outer k)) : ℝ) : EReal) * ((f2r (ix2 (inner (i 1)) (inner k)) : ℝ) : EReal))
      = ((∑ k : Fin 8192, xr (ix2 (i 0) k) * (f1r (ix2 (outer (i 1)) (outer k)) * f2r (ix2 (inner (i 1)) (inner k))) : ℝ) : EReal) := by
    rw [coe_sum]
    exact Finset.sum_congr rfl fun k _ => by rw [EReal.coe_mul, EReal.coe_mul]
  have hr : ∑ j1 : Fin 128, (∑ j2 : Fin 64, ((xr (ix2 (i 0) (flat j1 j2)) : ℝ) : EReal) * ((f2r (ix2 (inner (i 1)) j2) : ℝ) : EReal)) * ((f1r (ix2 (outer (i 1)) j1) : ℝ) : EReal)
      = ((∑ j1 : Fin 128, (∑ j2 : Fin 64, xr (ix2 (i 0) (flat j1 j2)) * f2r (ix2 (inner (i 1)) j2)) * f1r (ix2 (outer (i 1)) j1) : ℝ) : EReal) := by
    rw [coe_sum]
    refine Finset.sum_congr rfl fun j1 _ => ?_
    rw [EReal.coe_mul, coe_sum]
    exact congrArg (· * ((f1r (ix2 (outer (i 1)) j1) : ℝ) : EReal)) (Finset.sum_congr rfl fun j2 _ => by rw [EReal.coe_mul])
  exact hl.trans ((congrArg _ (real_law (fun k => xr (ix2 (i 0) k)) (fun j1 => f1r (ix2 (outer (i 1)) j1)) (fun j2 => f2r (ix2 (inner (i 1)) j2)))).trans hr.symm)

end Cert.KronSpec

end
-- ==== Proof.KernelTerm.lean ====
/-
  The factored computation as ONE term of the four argument arrays: the input re-laid as 8192 rows of 64, multiplied by
  the transposed inner factor; the result re-laid so that the outer index becomes the contracted (last) axis, multiplied
  by the transposed outer factor; the result re-laid back to 64 rows of 8192 and the bias added along the rows.
-/
import proofs.«161441_j58248346469065_1_alg».proof.KernelIdeal
import proofs.«161441_j58248346469065_1_alg».proof.Proof.KronSpec

noncomputable section

namespace Cert.KernelIdeal.Term

open Idealize.ShloMosaic Cert.KernelIdeal Cert.KernelIdeal.Facts₀

variable [Cert.KernelIdeal.Facts]

/-- The first product's left operand: the input read as 8192 rows (batch × outer) of 64 (inner). -/
def rows0 (x : FVec Ideal S64x8192 .f32) : FVec Ideal S8192x64 .f32 :=
  shapeCast S8192x64 x shapeCasts_S64x8192_S8192x64

/-- The second product's left operand from the first product's result `y` (8192 × 64): the outer index moved last. -/
def rows1 (y : FVec Ideal S8192x64 .f32) : FVec Ideal S4096x128 .f32 :=
  shapeCast S4096x128
    (transpose S64x64x128 [0, 2, 1] (shapeCast S64x128x64 y shapeCasts_S8192x64_S64x128x64) transposes_S64x128x64_S64x64x128_0_2_1)
    shapeCasts_S64x64x128_S4096x128

/-- The result from the second product's result `z` (4096 × 128): re-laid to 64 rows of 8192, the bias added along the rows. -/
def finish (z : FVec Ideal S4096x128 .f32) (bias : FVec Ideal S8192 .f32) : FVec Ideal S64x8192 .f32 :=
  addf
    (shapeCast S64x8192
      (transpose S64x128x64 [0, 2, 1] (shapeCast S64x64x128 z shapeCasts_S4096x128_S64x64x128) transposes_S64x64x128_S64x128x64_0_2_1)
      shapeCasts_S64x128x64_S64x8192)
    (broadcastInDim S64x8192 ![0, 1] bcast_S1x8192_S64x8192_0_1 (broadcastInDim S1x8192 ![1] bcast_S8192_S1x8192_1 bias))

/-- The whole factored computation. -/
def composed (x : FVec Ideal S64x8192 .f32) (f1 : FVec Ideal S128x128 .f32) (f2 : FVec Ideal S64x64 .f32)
    (bias : FVec Ideal S8192 .f32) : FVec Ideal S64x8192 .f32 :=
  finish (Cert.KronSpec.mulBT 4096 128 128 (rows1 (Cert.KronSpec.mulBT 8192 64 64 (rows0 x) f2)) f1) bias

end Cert.KernelIdeal.Term

end
-- ==== Proof.KernelFold.lean ====
/-
  The contents of the result buffer after the last host stretch, walked back to the launch memory: the last stretch
  re-lays the second product and adds the bias; the second region leaves its output array at `a · bᵀ` of its input
  arrays as it found them; the middle stretch re-lays the first product; the first region leaves `a · bᵀ` again; the
  first stretch re-lays the input.  No stretch and no region writes an argument array.  What each region leaves is taken
  here as a hypothesis (`h0`, `h1`), stated for any entry contents.
-/
import proofs.«161441_j58248346469065_1_alg».proof.Proof.Gen.KernelIdeal.Frame
import proofs.«161441_j58248346469065_1_alg».proof.Proof.KernelTerm
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Term

variable (m : (ℓ : Loc nD τ sig) → Buf (Elt Ideal) ℓ) (ρ : Dev nD → PrngReg)

/-! ## The argument arrays at the boundaries that read them -/

theorem W1_arg0 (c : Dev nD) : W0 m ρ c (Proc.devRef .tc main_arg0) = m ((c : Thread nD τ).loc main_arg0) := rfl

theorem V1_arg2 (c : Dev nD) : V1 m ρ c main_arg2 = m ((c : Thread nD τ).loc main_arg2) := by
  show StableHlo.after hostOps0 (W0 m ρ c) (Proc.devRef .tc main_arg2) = _
  after_results

theorem V3_arg1 (c : Dev nD) : V3 m ρ c main_arg1 = m ((c : Thread nD τ).loc main_arg1) := by
  have e3 : W3 m ρ c (Proc.devRef .tc main_arg1) = W2 m ρ c (Proc.devRef .tc main_arg1) := by
    show StableHlo.after hostOps1 (W2 m ρ c) (Proc.devRef .tc main_arg1) = _
    after_results
  have e2 : W2 m ρ c (Proc.devRef .tc main_arg1) = W1 m ρ c (Proc.devRef .tc main_arg1) := W2_of_ne m ρ c main_arg1 (by decide)
  have e1 : W1 m ρ c (Proc.devRef .tc main_arg1) = W0 m ρ c (Proc.devRef .tc main_arg1) := by
    show StableHlo.after hostOps0 (W0 m ρ c) (Proc.devRef .tc main_arg1) = _
    after_results
  exact e3.trans (e2.trans e1)

theorem W4_arg3 (c : Dev nD) : W4 m ρ c (Proc.devRef .tc main_arg3) = m ((c : Thread nD τ).loc main_arg3) := by
  have e5 : W5 m ρ c (Proc.devRef .tc main_arg3) = W4 m ρ c (Proc.devRef .tc main_arg3) := by
    show StableHlo.after hostOps2 (W4 m ρ c) (Proc.devRef .tc main_arg3) = _
    after_results
  exact e5.symm.trans (W5_main_arg3 m ρ c)

/-! ## The three host stretches -/

theorem V1_v0 (c : Dev nD) : V1 m ρ c main_v0 = rows0 (m ((c : Thread nD τ).loc main_arg0)) := by
  show StableHlo.after hostOps0 (W0 m ρ c) (Proc.devRef .tc main_v0) = _
  after_results
  rfl

theorem V3_v4 (c : Dev nD) : V3 m ρ c main_v4 = rows1 (W2 m ρ c (Proc.devRef .tc main_v1)) := by
  show StableHlo.after hostOps1 (W2 m ρ c) (Proc.devRef .tc main_v4) = _
  after_results
  rfl

theorem W5_v11 (c : Dev nD) :
    W5 m ρ c (Proc.devRef .tc main_v11) = finish (W4 m ρ c (Proc.devRef .tc main_v5)) (W4 m ρ c (Proc.devRef .tc main_arg3)) := by
  show StableHlo.after hostOps2 (W4 m ρ c) (Proc.devRef .tc main_v11) = _
  after_results
  rfl

/-! ## The whole fold -/

/-- The result buffer after the last stretch is the composed term of the argument arrays as launched. -/
theorem result_eq
    (h0 : ∀ (V : (c : Dev nD) → (b : Ref sig .tc) → Buf (Elt Ideal) ((c : Thread nD τ).loc b)) (c : Dev nD),
      (dat0 (F := Ideal) V c).arrAt 2 cfg0.N = Cert.KronSpec.mulBT 8192 64 64 (V c main_v0) (V c main_arg2))
    (h1 : ∀ (V : (c : Dev nD) → (b : Ref sig .tc) → Buf (Elt Ideal) ((c : Thread nD τ).loc b)) (c : Dev nD),
      (dat1 (F := Ideal) V c).arrAt 2 cfg1.N = Cert.KronSpec.mulBT 4096 128 128 (V c main_v4) (V c main_arg1))
    (c : Dev nD) :
    W5 m ρ c (Proc.devRef .tc main_v11)
      = composed (m ((c : Thread nD τ).loc main_arg0)) (m ((c : Thread nD τ).loc main_arg1))
          (m ((c : Thread nD τ).loc main_arg2)) (m ((c : Thread nD τ).loc main_arg3)) := by
  have r0 : W2 m ρ c (Proc.devRef .tc main_v1)
      = Cert.KronSpec.mulBT 8192 64 64 (rows0 (m ((c : Thread nD τ).loc main_arg0))) (m ((c : Thread nD τ).loc main_arg2)) := by
    refine (W2_arr m ρ c 2).trans ((h0 (V1 m ρ) c).trans ?_)
    rw [V1_v0 m ρ c, V1_arg2 m ρ c]
  have r1 : W4 m ρ c (Proc.devRef .tc main_v5)
      = Cert.KronSpec.mulBT 4096 128 128 (rows1 (W2 m ρ c (Proc.devRef .tc main_v1))) (m ((c : Thread nD τ).loc main_arg1)) := by
    refine (W4_arr m ρ c 2).trans ((h1 (V3 m ρ) c).trans ?_)
    rw [V3_v4 m ρ c, V3_arg1 m ρ c]
  rw [W5_v11 m ρ c, r1, r0, W4_arg3 m ρ c]
  rfl

end Cert.KernelIdeal.Fold

end
-- ==== Proof.KernelLayout.lean ====
/-
  The factored computation read at an index.  Each layout stage of the composed term (a re-reading of a row-major array
  under another shape, a swap of the last two axes, a broadcast along the rows) reads ONE element of its operand; chained,
  the composed term at batch `b` and output column `i1·64 + i2` is the double sum of the factored closed form.
-/
import proofs.«161441_j58248346469065_1_alg».proof.Proof.KernelTerm
import Idealize.ShloMosaic.Lib.Pipeline.Value
import Idealize.ShloMosaic.Lib.ValueIdx

noncomputable section

namespace Cert.KernelIdeal.Layout

open Idealize.ShloMosaic Idealize.ShloMosaic.ValueIdx Cert.KernelIdeal Cert.KernelIdeal.Facts₀ Cert.KernelIdeal.Term
open Cert.KronSpec

variable [Cert.KernelIdeal.Facts]

/-- `a · bᵀ` at row `r`, column `n`: the contraction over the shared last axis. -/
theorem mulBT_apply (M K N : Nat) (a : (⟨2, ![M, K]⟩ : Shape).Idx → EReal) (b : (⟨2, ![N, K]⟩ : Shape).Idx → EReal)
    (r : Fin M) (n : Fin N) : mulBT M K N a b (ix2 r n) = ∑ k : Fin K, a (ix2 r k) * b (ix2 n k) := rfl

/-- Row `b·128 + j1`, column `j2` of the input re-read as 8192 rows of 64 is the input at batch `b`, column `j1·64 + j2`:
    both sit at row-major position `b·8192 + j1·64 + j2`. -/
theorem rows0_apply (x : FVec Ideal S64x8192 .f32) (b : Fin 64) (j1 : Fin 128) (j2 : Fin 64) :
    rows0 x (ix2 (⟨b.val * 128 + j1.val, by omega⟩ : Fin 8192) j2) = x (ix2 b (flat j1 j2)) := by
  unfold rows0
  exact shapeCast_apply x shapeCasts_S64x8192_S8192x64 _ (ix2 b (flat j1 j2)) (by
    rewrite [Shape.rowMajor_val_two, Shape.rowMajor_val_two]
    show b.val * 8192 + (j1.val * 64 + j2.val) = (b.val * 128 + j1.val) * 64 + j2.val
    omega)

/-- Row `b·64 + i2`, column `j1` of the second product's left operand is the first product's result at row `b·128 + j1`,
    column `i2`: the rows split as (batch, outer), the last two axes swapped, the leading two merged as (batch, inner). -/
theorem rows1_apply (y : FVec Ideal S8192x64 .f32) (b : Fin 64) (i2 : Fin 64) (j1 : Fin 128) :
    rows1 y (ix2 (⟨b.val * 64 + i2.val, by omega⟩ : Fin 4096) j1)
      = y (ix2 (⟨b.val * 128 + j1.val, by omega⟩ : Fin 8192) i2) := by
  unfold rows1
  -- the merged (batch, inner) row is position (b, i2, j1) of the 64 × 64 × 128 array
  refine (shapeCast_apply _ shapeCasts_S64x64x128_S4096x128 _ (ix3 b i2 j1) (by
    rewrite [Shape.rowMajor_val_three, Shape.rowMajor_val_two]
    show (b.val * 64 + i2.val) * 128 + j1.val = (b.val * 64 + i2.val) * 128 + j1.val
    rfl)).trans ?_
  -- the swap of the last two axes reads (b, j1, i2) of the 64 × 128 × 64 array
  refine (transpose_apply [0, 2, 1] _ transposes_S64x128x64_S64x64x128_0_2_1 (ix3 b i2 j1) (ix3 b j1 i2) (fun a => match a with
    | ⟨0, _⟩ => rfl
    | ⟨1, _⟩ => rfl
    | ⟨2, _⟩ => rfl)).trans ?_
  -- which is row b·128 + j1, column i2 of the 8192 × 64 array
  exact shapeCast_apply y shapeCasts_S8192x64_S64x128x64 (ix3 b j1 i2) _ (by
    rewrite [Shape.rowMajor_val_two, Shape.rowMajor_val_three]
    show (b.val * 128 + j1.val) * 64 + i2.val = (b.val * 128 + j1.val) * 64 + i2.val
    rfl)

/-- The result at batch `b`, column `i1·64 + i2` is the second product's result at row `b·64 + i2`, column `i1`, plus the
    bias at `i1·64 + i2`: the rows split as (batch, inner), the last two axes swapped, the trailing two merged as the column;
    the bias is repeated along every row. -/
theorem finish_apply (z : FVec Ideal S4096x128 .f32) (bias : FVec Ideal S8192 .f32) (b : Fin 64) (i1 : Fin 128) (i2 : Fin 64) :
    finish z bias (ix2 b (flat i1 i2))
      = z (ix2 (⟨b.val * 64 + i2.val, by omega⟩ : Fin 4096) i1) + bias (ix1 (flat i1 i2)) := by
  unfold finish
  rw [addf_apply]
  refine congrArg₂ (· + ·) ?_ ?_
  · -- column i1·64 + i2 of row b is position (b, i1, i2) of the 64 × 128 × 64 array
    refine (shapeCast_apply _ shapeCasts_S64x128x64_S64x8192 (ix2 b (flat i1 i2)) (ix3 b i1 i2) (by
      rewrite [Shape.rowMajor_val_three, Shape.rowMajor_val_two]
      show (b.val * 128 + i1.val) * 64 + i2.val = b.val * 8192 + (i1.val * 64 + i2.val)
      omega)).trans ?_
    -- the swap of the last two axes reads (b, i2, i1) of the 64 × 64 × 128 array
    refine (transpose_apply [0, 2, 1] _ transposes_S64x64x128_S64x128x64_0_2_1 (ix3 b i1 i2) (ix3 b i2 i1) (fun a => match a with
      | ⟨0, _⟩ => rfl
      | ⟨1, _⟩ => rfl
      | ⟨2, _⟩ => rfl)).trans ?_
    -- which is row b·64 + i2, column i1 of the 4096 × 128 array
    exact shapeCast_apply z shapeCasts_S4096x128_S64x64x128 (ix3 b i2 i1) _ (by
      rewrite [Shape.rowMajor_val_two, Shape.rowMajor_val_three]
      show (b.val * 64 + i2.val) * 128 + i1.val = (b.val * 64 + i2.val) * 128 + i1.val
      rfl)
  · -- every row of the broadcast is the one row, whose column is the bias entry
    refine (broadcastInDim_apply _ bcast_S1x8192_S64x8192_0_1 _ (ix2 b (flat i1 i2))
      (ix2 (⟨0, Nat.one_pos⟩ : Fin 1) (flat i1 i2)) (fun a => match a with
      | ⟨0, _⟩ => by show 0 = if (1 : Nat) = 1 then 0 else b.val; rw [if_pos rfl]
      | ⟨1, _⟩ => by show (flat i1 i2).val = if (8192 : Nat) = 1 then 0 else (flat i1 i2).val; rw [if_neg (by decide)])).trans ?_
    exact broadcastInDim_apply _ bcast_S8192_S1x8192_1 bias (ix2 (⟨0, Nat.one_pos⟩ : Fin 1) (flat i1 i2)) (ix1 (flat i1 i2))
      (fun a => match a with
      | ⟨0, _⟩ => by show (flat i1 i2).val = if (8192 : Nat) = 1 then 0 else (flat i1 i2).val; rw [if_neg (by decide)])

/-- The composed term is the factored closed form: at batch `b` and column `o = (o / 64)·64 + o % 64` the three stage
    readings and the two contractions give the double sum term by term. -/
theorem composed_eq_kronOut (x : FVec Ideal S64x8192 .f32) (f1 : FVec Ideal S128x128 .f32) (f2 : FVec Ideal S64x64 .f32) (bias : FVec Ideal S8192 .f32) :
    composed x f1 f2 bias = Cert.KronSpec.kronOut x f1 f2 bias := by
  funext i
  obtain ⟨b, o, rfl⟩ : ∃ (b : Fin 64) (o : Fin 8192), i = ix2 b o := ⟨i 0, i 1, eq_ix2 i⟩
  unfold composed kronOut
  show finish (mulBT 4096 128 128 (rows1 (mulBT 8192 64 64 (rows0 x) f2)) f1) bias (ix2 b o)
    = (∑ j1 : Fin 128, (∑ j2 : Fin 64, x (ix2 b (flat j1 j2)) * f2 (ix2 (inner o) j2)) * f1 (ix2 (outer o) j1)) + bias (ix1 o)
  have ho : ix2 b o = ix2 b (flat (outer o) (inner o)) := by rw [flat_outer_inner]
  rw [ho, finish_apply, flat_outer_inner, mulBT_apply 4096 128 128]
  refine congrArg (· + bias (ix1 o)) ?_
  refine Finset.sum_congr rfl fun j1 _ => ?_
  rw [rows1_apply, mulBT_apply 8192 64 64]
  refine congrArg (· * f1 (ix2 (outer o) j1)) ?_
  refine Finset.sum_congr rfl fun j2 _ => ?_
  rw [rows0_apply]

end Cert.KernelIdeal.Layout

end
-- ==== Proof.RegionZero.lean ====
/-
  The first of the two products. Each of its four grid points multiplies a block of 2048 rows of the 8192 × 64 left
  array by the TRANSPOSE of the 64 × 64 factor and writes the block of 2048 rows of the result:
      out[r, n] = ∑ k < 64, a[r, k] · b[n, k].
  First the body's arithmetic at one entry, then each block read where it sits in its array, then the four
  blocks put together: after the region the result array is `a · bᵀ` of the two arrays as the region found them.
-/
import proofs.«161441_j58248346469065_1_alg».proof.Proof.Gen.KernelIdeal.Frame
import proofs.«161441_j58248346469065_1_alg».proof.Proof.KronSpec
import Idealize.ShloMosaic.Lib.Pipeline.Value
import Idealize.ShloMosaic.Lib.ValueIdx
import Idealize.ShloMosaic.PureOps.Ideal.Laws
set_option maxRecDepth 16384
noncomputable section
namespace Cert.KernelIdeal.RegionZero
open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's arithmetic at an index

The body multiplies its row block by the TRANSPOSE of the factor block: the contraction runs over the
second axis of both operands. -/

/-- The left operand's row axis follows the output's row. -/
theorem lhs_axis0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
/-- The left operand's column axis is the contracted one. -/
theorem lhs_axis1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
/-- The right operand's row axis is the contracted one. -/
theorem rhs_axis0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
/-- The right operand's column axis follows the output's column. -/
theorem rhs_axis1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- Entry `(r, n)` of the body's result: the row `r` of the row block against the row `n` of the factor block.
    The casts to the narrow format are the identity on ideal values, and the accumulator starts at zero. -/
theorem body_apply (v0 : Vec Ideal S2048x64 .f32) (v3 : Vec Ideal S64x64 .f32) (r : Fin 2048) (n : Fin 64) :
    k0_pay1 (F := Ideal) v0 v3 (ix2 r n) = ∑ k : Fin 64, v0 (ix2 r k) * v3 (ix2 n k) := by
  unfold k0_pay1
  rw [shapeCast_self]
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r n) ((contrEquiv1 dot_S2048x64_S64x64_S2048x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S2048x64_S64x64_S2048x64_1_0_0_1_n_n.rhsIdx (ix2 r n) ((contrEquiv1 dot_S2048x64_S64x64_S2048x64_1_0_0_1_n_n 64 rfl rfl).symm k) = ix2 k n := funext fun a => Fin.ext (by
    match a with
    | ⟨0, _⟩ => exact (rhs_axis0 _ _).trans hk
    | ⟨1, _⟩ => exact rhs_axis1 _ _)
  rw [el, er, truncf_apply]
  rw [transpose_apply [1, 0] _ transposes_S64x64_p1_0_S64x64 (ix2 k n) (ix2 n k) (fun b => match b with
    | ⟨0, _⟩ => rfl
    | ⟨1, _⟩ => rfl), truncf_apply]

/-! ## From the row blocks to the whole array

Grid point `t` reads the row block `t` of the left array (2048 rows of 64), the whole 64 × 64 factor, and writes the
row block `t` of the result. -/

theorem zeros : (![0, 0] : Fin 2 → Nat) = fun _ => 0 := funext fun a => by fin_cases a <;> rfl

/-- The block indices, decided over the four grid points: the left array's row block moves with the result's, the
    factor's block never moves, and the result's row-block index stays below four. -/
theorem index_facts : ∀ t : Fin cfg0.N, win0_0.index t (0 : Fin 2) = win0_2.index t (0 : Fin 2)
    ∧ win0_0.index t (1 : Fin 2) = 0
    ∧ win0_2.index t (1 : Fin 2) = 0
    ∧ win0_1.index t (0 : Fin 2) = 0
    ∧ win0_1.index t (1 : Fin 2) = 0
    ∧ win0_2.index t (0 : Fin 2) < 4 :=
  (by decide +kernel : ∀ t : Fin grid0.N, _)

/-- Every one of the four row blocks of the result is some grid point's. -/
theorem index_onto : ∀ q : Fin 4, ∃ t : Fin cfg0.N, win0_2.index t (0 : Fin 2) = q.val :=
  (by decide +kernel : ∀ q : Fin 4, ∃ t : Fin grid0.N, win0_2.index t (0 : Fin 2) = q.val)

/-- Row `r` of point `t`'s row block of the left array is the array's row `2048 · (block index) + r`. -/
theorem rows_apply (V : (c : Dev nD) → (b : Ref sig .tc) → Buf (Elt Ideal) ((c : Thread nD τ).loc b)) (c : Dev nD) (t : Fin cfg0.N)
    (r : Fin 2048) (k : Fin 64) (R : Fin 8192) (hR : R.val = win0_2.index t (0 : Fin 2) * 2048 + r.val) :
    (iblk0 V c 0 t : Vec Ideal S2048x64 .f32) (ix2 r k) = (V c main_v0 : S8192x64.Idx → EReal) (ix2 R k) := by
  obtain ⟨e0, e1, e2, e3, e4, e5⟩ := index_facts t
  unfold iblk0
  rw [View.read_apply]
  show V c main_v0 _ = V c main_v0 _
  congr 1
  funext a
  apply Fin.ext
  match a with
  | ⟨0, _⟩ => show win0_0.index t (0 : Fin 2) * 2048 + 1 * r.val = R.val; omega
  | ⟨1, _⟩ => show win0_0.index t (1 : Fin 2) * 64 + 1 * k.val = k.val; omega

/-- Point `t`'s block of the factor is the whole factor. -/
theorem factor_apply (V : (c : Dev nD) → (b : Ref sig .tc) → Buf (Elt Ideal) ((c : Thread nD τ).loc b)) (c : Dev nD) (t : Fin cfg0.N)
    (n k : Fin 64) (N : Fin 64) (hN : N.val = n.val) :
    (iblk0 V c 1 t : Vec Ideal S64x64 .f32) (ix2 n k) = (V c main_arg2 : S64x64.Idx → EReal) (ix2 N k) := by
  obtain ⟨e0, e1, e2, e3, e4, e5⟩ := index_facts t
  unfold iblk0
  rw [View.read_apply]
  show V c main_arg2 _ = V c main_arg2 _
  congr 1
  funext a
  apply Fin.ext
  match a with
  | ⟨0, _⟩ => show win0_1.index t (0 : Fin 2) * 64 + 1 * n.val = N.val; omega
  | ⟨1, _⟩ => show win0_1.index t (1 : Fin 2) * 64 + 1 * k.val = k.val; omega

/-- What point `t` writes back is its row block of `a · bᵀ` of the two arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.KronSpec.mulBT 8192 64 64 (V c main_v0) (V c main_arg2)) := by
  show (cfg0.win 2).cut (grid0.coords t) ((dat0 V c).after 2 t) = _
  rw [after0_2]
  unfold out0_2
  rw [View.canon_unit_zero zeros]
  simp only [View.ld_unit_zero (S := S2048x64) zeros, View.ld_unit_zero (S := S64x64) zeros]
  obtain ⟨e0, e1, e2, e3, e4, e5⟩ := index_facts t
  funext j
  obtain ⟨r, n, rfl⟩ : ∃ (r : Fin 2048) (n : Fin 64), j = ix2 r n := ⟨j 0, j 1, eq_ix2 j⟩
  show k0_pay1 (F := Ideal) (iblk0 V c 0 t) (iblk0 V c 1 t) (ix2 r n)
    = Cert.KronSpec.mulBT 8192 64 64 (V c main_v0) (V c main_arg2) (((cfg0.win 2).blk t).view.emb (ix2 r n))
  rw [body_apply (iblk0 V c 0 t) (iblk0 V c 1 t) r n]
  unfold Cert.KronSpec.mulBT
  refine Finset.sum_congr rfl fun k _ => ?_
  rw [rows_apply V c t r k ((((cfg0.win 2).blk t).view.emb (ix2 r n)) 0) (by
      show win0_2.index t (0 : Fin 2) * 2048 + 1 * r.val = _; omega),
    factor_apply V c t n k ((((cfg0.win 2).blk t).view.emb (ix2 r n)) 1) (by
      show win0_2.index t (1 : Fin 2) * 64 + 1 * n.val = _; omega)]

/-- An index of the result is in point `t`'s block iff each coordinate is in the block's range on its axis. -/
theorem mem_block (t : Fin cfg0.N) (i : S8192x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v1).slice (win0_2.rect t)).set ↔ _
  rw [View.set_slice_whole, Rect.mem_set_unit]
  exact Iff.rfl

/-- Row `r` of the result lies in the block of the point whose block index is `r / 2048`, and every point writes back. -/
theorem covered (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := index_onto ⟨(i 0).val / 2048, by omega⟩
  have q0 : win0_2.index t (0 : Fin 2) = (i 0).val / 2048 := ht
  obtain ⟨e0, e1, e2, e3, e4, e5⟩ := index_facts t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After the region the result array holds `a · bᵀ` of the two input arrays as the region found them. -/
theorem arr_eq (V : (c : Dev nD) → (b : Ref sig .tc) → Buf (Elt Ideal) ((c : Thread nD τ).loc b)) (c : Dev nD) :
    (dat0 (F := Ideal) V c).arrAt 2 cfg0.N = Cert.KronSpec.mulBT 8192 64 64 (V c main_v0) (V c main_arg2) :=
  (dat0 (F := Ideal) V c).arrAt_eq_of_cover 2 (Cert.KronSpec.mulBT 8192 64 64 (V c main_v0) (V c main_arg2))
    (fun t _ => flushed_eq V c t) covered

end Cert.KernelIdeal.RegionZero

end
-- ==== Proof.RegionOne.lean ====
/-
  The second of the two products. Each of its four grid points multiplies a block of 1024 rows of the 4096 × 128 left
  array by the TRANSPOSE of the 128 × 128 factor and writes the block of 1024 rows of the result:
      out[r, n] = ∑ k < 128, a[r, k] · b[n, k].
  First the body's arithmetic at one entry, then each block read where it sits in its array, then the four
  blocks put together: after the region the result array is `a · bᵀ` of the two arrays as the region found them.
-/
import proofs.«161441_j58248346469065_1_alg».proof.Proof.Gen.KernelIdeal.Frame
import proofs.«161441_j58248346469065_1_alg».proof.Proof.KronSpec
import Idealize.ShloMosaic.Lib.Pipeline.Value
import Idealize.ShloMosaic.Lib.ValueIdx
import Idealize.ShloMosaic.PureOps.Ideal.Laws
set_option maxRecDepth 16384
noncomputable section
namespace Cert.KernelIdeal.RegionOne
open Idealize.ShloMosaic Idealize.ShloMosaic.TcCoe Idealize.ShloMosaic.ValueIdx Idealize.SL.Sem Cert.KernelIdeal Cert.KernelIdeal.Gen
open Idealize.ShloMosaic.Pipeline (Dat Cfg Window)

/-! ## The body's arithmetic at an index

The body multiplies its row block by the TRANSPOSE of the factor block: the contraction runs over the
second axis of both operands. -/

/-- The left operand's row axis follows the output's row. -/
theorem lhs_axis0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column axis is the contracted one. -/
theorem lhs_axis1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row axis is the contracted one. -/
theorem rhs_axis0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- The right operand's column axis follows the output's column. -/
theorem rhs_axis1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Entry `(r, n)` of the body's result: the row `r` of the row block against the row `n` of the factor block.
    The casts to the narrow format are the identity on ideal values, and the accumulator starts at zero. -/
theorem body_apply (v0 : Vec Ideal S1024x128 .f32) (v3 : Vec Ideal S128x128 .f32) (r : Fin 1024) (n : Fin 128) :
    k1_pay1 (F := Ideal) v0 v3 (ix2 r n) = ∑ k : Fin 128, v0 (ix2 r k) * v3 (ix2 n k) := by
  unfold k1_pay1
  rw [shapeCast_self]
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r n) ((contrEquiv1 dot_S1024x128_S128x128_S1024x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S1024x128_S128x128_S1024x128_1_0_0_1_n_n.rhsIdx (ix2 r n) ((contrEquiv1 dot_S1024x128_S128x128_S1024x128_1_0_0_1_n_n 128 rfl rfl).symm k) = ix2 k n := funext fun a => Fin.ext (by
    match a with
    | ⟨0, _⟩ => exact (rhs_axis0 _ _).trans hk
    | ⟨1, _⟩ => exact rhs_axis1 _ _)
  rw [el, er, truncf_apply]
  rw [transpose_apply [1, 0] _ transposes_S128x128_p1_0_S128x128 (ix2 k n) (ix2 n k) (fun b => match b with
    | ⟨0, _⟩ => rfl
    | ⟨1, _⟩ => rfl), truncf_apply]

/-! ## From the row blocks to the whole array

Grid point `t` reads the row block `t` of the left array (1024 rows of 128), the whole 128 × 128 factor, and writes the
row block `t` of the result. -/

theorem zeros : (![0, 0] : Fin 2 → Nat) = fun _ => 0 := funext fun a => by fin_cases a <;> rfl

/-- The block indices, decided over the four grid points: the left array's row block moves with the result's, the
    factor's block never moves, and the result's row-block index stays below four. -/
theorem index_facts : ∀ t : Fin cfg1.N, win1_0.index t (0 : Fin 2) = win1_2.index t (0 : Fin 2)
    ∧ win1_0.index t (1 : Fin 2) = 0
    ∧ win1_2.index t (1 : Fin 2) = 0
    ∧ win1_1.index t (0 : Fin 2) = 0
    ∧ win1_1.index t (1 : Fin 2) = 0
    ∧ win1_2.index t (0 : Fin 2) < 4 :=
  (by decide +kernel : ∀ t : Fin grid1.N, _)

/-- Every one of the four row blocks of the result is some grid point's. -/
theorem index_onto : ∀ q : Fin 4, ∃ t : Fin cfg1.N, win1_2.index t (0 : Fin 2) = q.val :=
  (by decide +kernel : ∀ q : Fin 4, ∃ t : Fin grid1.N, win1_2.index t (0 : Fin 2) = q.val)

/-- Row `r` of point `t`'s row block of the left array is the array's row `1024 · (block index) + r`. -/
theorem rows_apply (V : (c : Dev nD) → (b : Ref sig .tc) → Buf (Elt Ideal) ((c : Thread nD τ).loc b)) (c : Dev nD) (t : Fin cfg1.N)
    (r : Fin 1024) (k : Fin 128) (R : Fin 4096) (hR : R.val = win1_2.index t (0 : Fin 2) * 1024 + r.val) :
    (iblk1 V c 0 t : Vec Ideal S1024x128 .f32) (ix2 r k) = (V c main_v4 : S4096x128.Idx → EReal) (ix2 R k) := by
  obtain ⟨e0, e1, e2, e3, e4, e5⟩ := index_facts t
  unfold iblk1
  rw [View.read_apply]
  show V c main_v4 _ = V c main_v4 _
  congr 1
  funext a
  apply Fin.ext
  match a with
  | ⟨0, _⟩ => show win1_0.index t (0 : Fin 2) * 1024 + 1 * r.val = R.val; omega
  | ⟨1, _⟩ => show win1_0.index t (1 : Fin 2) * 128 + 1 * k.val = k.val; omega

/-- Point `t`'s block of the factor is the whole factor. -/
theorem factor_apply (V : (c : Dev nD) → (b : Ref sig .tc) → Buf (Elt Ideal) ((c : Thread nD τ).loc b)) (c : Dev nD) (t : Fin cfg1.N)
    (n k : Fin 128) (N : Fin 128) (hN : N.val = n.val) :
    (iblk1 V c 1 t : Vec Ideal S128x128 .f32) (ix2 n k) = (V c main_arg1 : S128x128.Idx → EReal) (ix2 N k) := by
  obtain ⟨e0, e1, e2, e3, e4, e5⟩ := index_facts t
  unfold iblk1
  rw [View.read_apply]
  show V c main_arg1 _ = V c main_arg1 _
  congr 1
  funext a
  apply Fin.ext
  match a with
  | ⟨0, _⟩ => show win1_1.index t (0 : Fin 2) * 128 + 1 * n.val = N.val; omega
  | ⟨1, _⟩ => show win1_1.index t (1 : Fin 2) * 128 + 1 * k.val = k.val; omega

/-- What point `t` writes back is its row block of `a · bᵀ` of the two arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.KronSpec.mulBT 4096 128 128 (V c main_v4) (V c main_arg1)) := by
  show (cfg1.win 2).cut (grid1.coords t) ((dat1 V c).after 2 t) = _
  rw [after1_2]
  unfold out1_2
  rw [View.canon_unit_zero zeros]
  simp only [View.ld_unit_zero (S := S1024x128) zeros, View.ld_unit_zero (S := S128x128) zeros]
  obtain ⟨e0, e1, e2, e3, e4, e5⟩ := index_facts t
  funext j
  obtain ⟨r, n, rfl⟩ : ∃ (r : Fin 1024) (n : Fin 128), j = ix2 r n := ⟨j 0, j 1, eq_ix2 j⟩
  show k1_pay1 (F := Ideal) (iblk1 V c 0 t) (iblk1 V c 1 t) (ix2 r n)
    = Cert.KronSpec.mulBT 4096 128 128 (V c main_v4) (V c main_arg1) (((cfg1.win 2).blk t).view.emb (ix2 r n))
  rw [body_apply (iblk1 V c 0 t) (iblk1 V c 1 t) r n]
  unfold Cert.KronSpec.mulBT
  refine Finset.sum_congr rfl fun k _ => ?_
  rw [rows_apply V c t r k ((((cfg1.win 2).blk t).view.emb (ix2 r n)) 0) (by
      show win1_2.index t (0 : Fin 2) * 1024 + 1 * r.val = _; omega),
    factor_apply V c t n k ((((cfg1.win 2).blk t).view.emb (ix2 r n)) 1) (by
      show win1_2.index t (1 : Fin 2) * 128 + 1 * n.val = _; omega)]

/-- An index of the result is in point `t`'s block iff each coordinate is in the block's range on its axis. -/
theorem mem_block (t : Fin cfg1.N) (i : S4096x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v5).slice (win1_2.rect t)).set ↔ _
  rw [View.set_slice_whole, Rect.mem_set_unit]
  exact Iff.rfl

/-- Row `r` of the result lies in the block of the point whose block index is `r / 1024`, and every point writes back. -/
theorem covered (i : S4096x128.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  obtain ⟨t, ht⟩ := index_onto ⟨(i 0).val / 1024, by omega⟩
  have q0 : win1_2.index t (0 : Fin 2) = (i 0).val / 1024 := ht
  obtain ⟨e0, e1, e2, e3, e4, e5⟩ := index_facts t
  refine ⟨t, flush1_2 t, ?_⟩
  rw [mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- After the region the result array holds `a · bᵀ` of the two input arrays as the region found them. -/
theorem arr_eq (V : (c : Dev nD) → (b : Ref sig .tc) → Buf (Elt Ideal) ((c : Thread nD τ).loc b)) (c : Dev nD) :
    (dat1 (F := Ideal) V c).arrAt 2 cfg1.N = Cert.KronSpec.mulBT 4096 128 128 (V c main_v4) (V c main_arg1) :=
  (dat1 (F := Ideal) V c).arrAt_eq_of_cover 2 (Cert.KronSpec.mulBT 4096 128 128 (V c main_v4) (V c main_arg1))
    (fun t _ => flushed_eq V c t) covered

end Cert.KernelIdeal.RegionOne

end
-- ==== Proof.RefClosed.lean ====
/-
  The reference's value, one operation at a time, is the dense closed form.

  The reference broadcasts the outer factor to the four-axis array `w[a, b, c, d] = f1[a, c] · f2[b, d]`
  (128 × 64 × 128 × 64), reads it row-major as an 8192 × 8192 matrix, transposes it, and multiplies the input by the
  result: the product's element `(b, o)` is the sum over `k` of `x[b, k]` times the weight at row `o`, column `k`,
  that is at flat position `o · 8192 + k` of the four-axis array.  For `o, k < 8192` that position has coordinates
  `(o / 64, o % 64, k / 64, k % 64)`, so the weight is `f1[o / 64, k / 64] · f2[o % 64, k % 64]`.  The bias is
  broadcast along the rows and added.
-/
import proofs.«161441_j58248346469065_1_alg».proof.Proof.Gen.ReferenceIdeal.Read
import proofs.«161441_j58248346469065_1_alg».proof.Proof.KronSpec

noncomputable section

namespace Cert.RefClosed

open Idealize.ShloMosaic Idealize.ShloMosaic.ValueIdx Cert.ReferenceIdeal Cert.ReferenceIdeal.Read

/-- The product's left operand is read at row `i 0`, column `k`. -/
theorem lidx_eq (i : S64x8192.Idx) (k : Fin 8192) : lidx_main_v2 i k = ix2 (i 0) k :=
  funext fun a => match a with
    | ⟨0, _⟩ => rfl
    | ⟨1, _⟩ => rfl

/-- The outer factor is read at `(o / 64, k / 64)`: coordinates 0 and 2 of flat position `o · 8192 + k`. -/
theorem f1idx_eq (i : S64x8192.Idx) (k : Fin 8192) :
    idx_main_call0_v0 (idx_main_call0_v2 (idx_main_v0 (idx_main_v1 (ridx_main_v2 i k))))
      = ix2 (Cert.KronSpec.outer (i 1)) (Cert.KronSpec.outer k) := by
  have h1 : (i 1).val < 8192 := (i 1).isLt
  have hk : k.val < 8192 := k.isLt
  funext a
  refine Fin.ext ?_
  match a with
  | ⟨0, _⟩ =>
    show ((i 1).val * 8192 + k.val) / 524288 = (i 1).val / 64
    omega
  | ⟨1, _⟩ =>
    show ((i 1).val * 8192 + k.val) / 64 % 128 = k.val / 64
    omega

/-- The inner factor is read at `(o % 64, k % 64)`: coordinates 1 and 3 of flat position `o · 8192 + k`. -/
theorem f2idx_eq (i : S64x8192.Idx) (k : Fin 8192) :
    idx_main_call0_v1 (idx_main_call0_v3 (idx_main_v0 (idx_main_v1 (ridx_main_v2 i k))))
      = ix2 (Cert.KronSpec.inner (i 1)) (Cert.KronSpec.inner k) := by
  have h1 : (i 1).val < 8192 := (i 1).isLt
  have hk : k.val < 8192 := k.isLt
  funext a
  refine Fin.ext ?_
  match a with
  | ⟨0, _⟩ =>
    show ((i 1).val * 8192 + k.val) / 8192 % 64 = (i 1).val % 64
    omega
  | ⟨1, _⟩ =>
    show ((i 1).val * 8192 + k.val) % 64 = k.val % 64
    omega

/-- The bias is read at the column. -/
theorem biasidx_eq (i : S64x8192.Idx) : idx_main_v3 (idx_main_v4 i) = ix1 (i 1) :=
  funext fun a => match a with
    | ⟨0, _⟩ => rfl

/-- One entry of the transposed Kronecker weight: row `k`, column `o = i 1`. -/
theorem weight_apply (f1 : FVec Ideal S128x128 .f32) (f2 : FVec Ideal S64x64 .f32) (i : S64x8192.Idx) (k : Fin 8192) :
    val_main_v1 (F := Ideal) f1 f2 (ridx_main_v2 i k)
      = f1 (ix2 (Cert.KronSpec.outer (i 1)) (Cert.KronSpec.outer k)) * f2 (ix2 (Cert.KronSpec.inner (i 1)) (Cert.KronSpec.inner k)) := by
  rw [val_main_v1_apply, val_main_v0_apply, val_main_call0_v4_apply, val_main_call0_v2_apply, val_main_call0_v0_apply,
    val_main_call0_v3_apply, val_main_call0_v1_apply, f1idx_eq, f2idx_eq]
  rfl

/-- The reference's result is the dense closed form. -/
theorem val_eq_refOut (x : FVec Ideal S64x8192 .f32) (f1 : FVec Ideal S128x128 .f32) (f2 : FVec Ideal S64x64 .f32) (bias : FVec Ideal S8192 .f32) :
    val_main_v5 (F := Ideal) x f1 f2 bias = Cert.KronSpec.refOut x f1 f2 bias := by
  funext i
  unfold Cert.KronSpec.refOut
  rw [val_main_v5_apply, val_main_v2_apply, val_main_v4_apply, val_main_v3_apply, biasidx_eq]
  show (∑ k : Fin 8192, x (lidx_main_v2 i k) * val_main_v1 (F := Ideal) f1 f2 (ridx_main_v2 i k)) + bias (ix1 (i 1)) = _
  refine congrArg (· + bias (ix1 (i 1))) ?_
  refine Finset.sum_congr rfl fun k _ => ?_
  rw [weight_apply, lidx_eq]
  rfl

end Cert.RefClosed

end
-- ==== Proof.FiniteInputs.lean ====
/-
  From the printed precondition to "the three multiplied inputs are real".

  The precondition is the conjunction of four tests, one per input: every element's absolute value is below +∞
  (the word 0x7F800000).  Each test is a reduction by "and" over all axes, started from 1, and the four results are
  and-ed.  The conjunction being 1, each reduction is 1, so each comparison is 1 at every index: `max a (-a) < ⊤` for
  the element `a`.  An extended real with that property is neither `⊤` nor `⊥`, so it is a real number.
-/
import proofs.«161441_j58248346469065_1_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Cert.Pre_finite_inputs

variable [Cert.Pre_finite_inputs.Facts]

/-- The scalar shape has one index. -/
instance : Subsingleton S_.Idx := ⟨fun a b => funext fun d => d.elim0⟩

/-- The word 0x7F800000 denotes +∞. -/
theorem inf_bits : Ideal.ofBits .f32 0x7F800000#32 = (⊤ : EReal) := by
  simp [Ideal.ofBits, Ideal.ieee]

/-- An extended real whose absolute value compares below +∞ is a real number. -/
theorem real_of_abs_lt (a : EReal) (h : Ideal.cmp .olt (max a (-a)) ⊤ = 1#1) : ∃ r : ℝ, a = (r : EReal) := by
  have hlt : max a (-a) < ⊤ := by
    by_contra hn
    simp [Ideal.cmp, hn] at h
  induction a using EReal.rec with
  | bot => simp at hlt
  | coe r => exact ⟨r, rfl⟩
  | top => simp at hlt

/-- One test read back: the reduction of the comparison by "and" being 1, every element is real. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) :
    ∃ xr : s.Idx → ℝ, x = fun i => ((xr i : ℝ) : EReal) := by
  have hel : ∀ i : s.Idx, ∃ r : ℝ, x i = (r : EReal) := fun i => by
    have hi := Host.reduce_andi_all _ _ hr hu ValueIdx.ix0 e i
    refine real_of_abs_lt (x i) ?_
    rw [← inf_bits]
    exact hi
  exact ⟨fun i => Classical.choose (hel i), funext fun i => Classical.choose_spec (hel i)⟩

theorem real_of_pre (x : FVec Ideal S64x8192 .f32) (f1 : FVec Ideal S128x128 .f32) (f2 : FVec Ideal S64x64 .f32) (bias : FVec Ideal S8192 .f32)
    (h : Cert.Pre_finite_inputs.fn (F := Ideal) x f1 f2 bias = fun _ => 1#1) :
    (∃ xr : S64x8192.Idx → ℝ, x = fun i => ((xr i : ℝ) : EReal)) ∧ (∃ f1r : S128x128.Idx → ℝ, f1 = fun i => ((f1r i : ℝ) : EReal))
      ∧ (∃ f2r : S64x64.Idx → ℝ, f2 = fun i => ((f2r i : ℝ) : EReal)) := by
  have h0 := congrFun h ValueIdx.ix0
  dsimp only [Cert.Pre_finite_inputs.fn, Cert.Pre_finite_inputs.fn_part1] at h0
  obtain ⟨h13, -⟩ := IntOp.andi_eq_one.1 h0
  obtain ⟨h8, h12⟩ := IntOp.andi_eq_one.1 h13
  obtain ⟨h3, h7⟩ := IntOp.andi_eq_one.1 h8
  exact ⟨real_of_all x _ _ _ h3, real_of_all f1 _ _ _ h7, real_of_all f2 _ _ _ h12⟩

end Cert.FiniteInputs

end
-- ==== Proof.lean ====
/-
  `x @ kron(f1, f2)ᵀ + bias`, computed by two small matrix products with layout glue between them, against the dense product
  with the Kronecker weight.

  Both sides are closed forms of the four argument arrays (Proof/KronSpec.lean).  The kernel's program runs as five
  segments (Proof/KernelRun.lean); its result buffer, walked back through the host stretches and the two regions
  (Proof/KernelFold.lean over Proof/RegionZero.lean and Proof/RegionOne.lean: each region leaves `a · bᵀ` of its input arrays),
  is the composed term of Proof/KernelTerm.lean, which read at an index is the factored form (Proof/KernelLayout.lean).  The
  reference's run ends at its stage term, which read at an index is the dense form (Proof/RefClosed.lean).  The two forms
  agree on real inputs — the precondition makes the inputs real (Proof/FiniteInputs.lean) — by splitting the long
  contraction index into its outer and inner part and moving the outer factor out of the inner sum (KronSpec's law).
  The ideal pass rewrote nothing, so `preserves` has no conjunct.
-/
import proofs.«161441_j58248346469065_1_alg».proof.Defs
import proofs.«161441_j58248346469065_1_alg».proof.Proof.Gen.Kernel
import proofs.«161441_j58248346469065_1_alg».proof.Proof.Gen.Kernel.Skeleton
import proofs.«161441_j58248346469065_1_alg».proof.Proof.Gen.Kernel.Launch
import proofs.«161441_j58248346469065_1_alg».proof.Proof.Gen.Kernel.Points
import proofs.«161441_j58248346469065_1_alg».proof.Proof.Gen.Kernel.Frame
import proofs.«161441_j58248346469065_1_alg».proof.Proof.Gen.KernelIdeal
import proofs.«161441_j58248346469065_1_alg».proof.Proof.Gen.KernelIdeal.Skeleton
import proofs.«161441_j58248346469065_1_alg».proof.Proof.Gen.KernelIdeal.Launch
import proofs.«161441_j58248346469065_1_alg».proof.Proof.Gen.KernelIdeal.Points
import proofs.«161441_j58248346469065_1_alg».proof.Proof.Gen.KernelIdeal.Frame
import proofs.«161441_j58248346469065_1_alg».proof.Proof.Gen.ReferenceIdeal
import proofs.«161441_j58248346469065_1_alg».proof.Proof.Gen.Pre_finite_inputs
import proofs.«161441_j58248346469065_1_alg».proof.Proof.Gen.ReferenceIdeal.Run
import proofs.«161441_j58248346469065_1_alg».proof.Proof.Gen.ReferenceIdeal.Read
import proofs.«161441_j58248346469065_1_alg».proof.Proof.KronSpec
import proofs.«161441_j58248346469065_1_alg».proof.Proof.KernelTerm
import proofs.«161441_j58248346469065_1_alg».proof.Proof.KernelRun
import proofs.«161441_j58248346469065_1_alg».proof.Proof.KernelFold
import proofs.«161441_j58248346469065_1_alg».proof.Proof.KernelLayout
import proofs.«161441_j58248346469065_1_alg».proof.Proof.RegionZero
import proofs.«161441_j58248346469065_1_alg».proof.Proof.RegionOne
import proofs.«161441_j58248346469065_1_alg».proof.Proof.RefClosed
import proofs.«161441_j58248346469065_1_alg».proof.Proof.FiniteInputs
import Idealize.ShloMosaic.Adequacy
import Idealize.ShloMosaic.Init

noncomputable section

namespace Cert.Proof

open Idealize.ShloMosaic Idealize.SL.Sem

/-- The word-level program runs and keeps its arguments: the generated frame. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end at the factored form of the kernel's arguments: the kernel's
    by the fold and the index reading; the reference's at the dense form, which on the real inputs the precondition
    grants is the factored form. -/
theorem algebraic : Cert.algebraic_KernelIdeal_ReferenceIdeal := by
  intro m ρ m' ρ' hpre hagree
  refine ⟨fun c => Cert.KronSpec.kronOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.RunValue.run_result (F := Ideal) m ρ)
    rw [Cert.KernelIdeal.Fold.result_eq m ρ Cert.KernelIdeal.RegionZero.arr_eq Cert.KernelIdeal.RegionOne.arr_eq c]
    exact Cert.KernelIdeal.Layout.composed_eq_kronOut _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.RefClosed.val_eq_refOut,
      (hagree c).1, (hagree c).2.1, (hagree c).2.2.1, (hagree c).2.2.2]
    obtain ⟨⟨xr, hx⟩, ⟨f1r, hf1⟩, ⟨f2r, hf2⟩⟩ := Cert.FiniteInputs.real_of_pre _ _ _ _ (hpre c)
    beta_reduce
    rw [hx, hf1, hf2]
    exact Cert.KronSpec.refOut_eq_kronOut xr f1r f2r _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
